-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24576x2048 : Shape := ⟨2, ![24576, 2048]⟩
abbrev S1x3x2048 : Shape := ⟨3, ![1, 3, 2048]⟩
abbrev S_ : Shape := ⟨0, ![]⟩

class Facts : Prop where
  bcast_S_S24576x2048 : S_.BroadcastsInDim S24576x2048 (![] : Fin 0 → Fin S24576x2048.rank)
  reducesTo_S24576x2048_S_d0_1 : S24576x2048.ReducesTo [0, 1] S_
  h_S_ : 0 < S_.numel
  bcast_S_S1x3x2048 : S_.BroadcastsInDim S1x3x2048 (![] : Fin 0 → Fin S1x3x2048.rank)
  reducesTo_S1x3x2048_S_d0_1_2 : S1x3x2048.ReducesTo [0, 1, 2] S_

variable [Facts]

def fn {F : FTy → Type} [FloatOps F] (main_arg0 : FVec F S24576x2048 .f32) (main_arg1 : FVec F S1x3x2048 .f32) : IVec S_ 1 :=
  let main_v0 : FVec F S24576x2048 .f32 := Host.absf main_arg0
  let main_cst : FVec F S_ .f32 := constant S_ .f32 0x7F800000#32
  let main_v1 : FVec F S24576x2048 .f32 := broadcastInDim S24576x2048 ![] bcast_S_S24576x2048 main_cst
  let main_v2 : IVec S24576x2048 1 := cmpf .olt main_v0 main_v1
  let main_c : IVec S_ 1 := constantI S_ 1 1#1
  let main_v3 : IVec S_ 1 := (fun x v => Host.reduce IntOp.andi x v reducesTo_S24576x2048_S_d0_1 h_S_) main_v2 main_c
  let main_v4 : FVec F S1x3x2048 .f32 := Host.absf main_arg1
  let main_cst_0 : FVec F S_ .f32 := constant S_ .f32 0x7F800000#32
  let main_v5 : FVec F S1x3x2048 .f32 := broadcastInDim S1x3x2048 ![] bcast_S_S1x3x2048 main_cst_0
  let main_v6 : IVec S1x3x2048 1 := cmpf .olt main_v4 main_v5
  let main_c_1 : IVec S_ 1 := constantI S_ 1 1#1
  let main_v7 : IVec S_ 1 := (fun x v => Host.reduce IntOp.andi x v reducesTo_S1x3x2048_S_d0_1_2 h_S_) main_v6 main_c_1
  let main_v8 : IVec S_ 1 := andi main_v3 main_v7
  main_v8
-- ==== Kernel.lean ====
abbrev S24576x2048 : Shape := ⟨2, ![24576, 2048]⟩
abbrev S1x3x2048 : Shape := ⟨3, ![1, 3, 2048]⟩
abbrev S8192x3x2048 : Shape := ⟨3, ![8192, 3, 2048]⟩
abbrev S128x3x2048 : Shape := ⟨3, ![128, 3, 2048]⟩
abbrev S128x1x2048 : Shape := ⟨3, ![128, 1, 2048]⟩
abbrev S128x2048 : Shape := ⟨2, ![128, 2048]⟩
abbrev S1x1x2048 : Shape := ⟨3, ![1, 1, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 5
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S1x3x2048, .f32⟩
  | .hbm, ⟨2, _⟩ => ⟨S8192x3x2048, .f32⟩
  | .hbm, ⟨3, _⟩ => ⟨S8192x3x2048, .f32⟩
  | .hbm, ⟨4, _⟩ => ⟨S24576x2048, .f32⟩
  | .local _ .vmem, ⟨0, _⟩ => ⟨S128x3x2048, .f32⟩
  | .local _ .vmem, ⟨1, _⟩ => ⟨S128x3x2048, .f32⟩
  | .local _ .vmem, ⟨2, _⟩ => ⟨S1x3x2048, .f32⟩
  | .local _ .vmem, ⟨3, _⟩ => ⟨S128x3x2048, .f32⟩
  | .local _ .vmem, ⟨4, _⟩ => ⟨S128x3x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S24576x2048_S8192x3x2048 : S24576x2048.ShapeCasts S8192x3x2048
  inb_S128x3x2048_S128x3x2048_0_0_0 : ∀ a, (![0, 0, 0] : Fin 3 → Nat) a + S128x3x2048.size a ≤ S128x3x2048.size a
  h_S128x3x2048 : 0 < S128x3x2048.numel
  shapeCasts_S128x3x2048_S128x3x2048 : S128x3x2048.ShapeCasts S128x3x2048
  inb_S1x3x2048_S1x3x2048_0_0_0 : ∀ a, (![0, 0, 0] : Fin 3 → Nat) a + S1x3x2048.size a ≤ S1x3x2048.size a
  h_S1x3x2048 : 0 < S1x3x2048.numel
  slices_S128x3x2048_o0_0_0_S128x1x2048 : S128x3x2048.Slices ![0, 0, 0] S128x1x2048
  shapeCasts_S128x1x2048_S128x2048 : S128x1x2048.ShapeCasts S128x2048
  slices_S1x3x2048_o0_0_0_S1x1x2048 : S1x3x2048.Slices ![0, 0, 0] S1x1x2048
  shapeCasts_S1x1x2048_S2048 : S1x1x2048.ShapeCasts S2048
  shapeCasts_S2048_S1x2048 : S2048.ShapeCasts S1x2048
  broadcasts_S1x2048_S128x2048 : S1x2048.Broadcasts S128x2048
  slices_S128x3x2048_o0_1_0_S128x1x2048 : S128x3x2048.Slices ![0, 1, 0] S128x1x2048
  slices_S1x3x2048_o0_1_0_S1x1x2048 : S1x3x2048.Slices ![0, 1, 0] S1x1x2048
  slices_S128x3x2048_o0_2_0_S128x1x2048 : S128x3x2048.Slices ![0, 2, 0] S128x1x2048
  slices_S1x3x2048_o0_2_0_S1x1x2048 : S1x3x2048.Slices ![0, 2, 0] S1x1x2048
  reduces_S128x2048_S128 : S128x2048.Reduces [1] S128
  shapeCasts_S128_S128x1 : S128.ShapeCasts S128x1
  broadcasts_S128x1_S128x2048 : S128x1.Broadcasts S128x2048
  shapeCasts_S128x2048_S128x1x2048 : S128x2048.ShapeCasts S128x1x2048
  concatenates_S128x1x2048_S128x1x2048_S128x1x2048_S128x3x2048_d1 : Shape.Concatenates [S128x1x2048, S128x1x2048, S128x1x2048] S128x3x2048 1
  shapeCasts_S8192x3x2048_S24576x2048 : S8192x3x2048.ShapeCasts S24576x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3x2048.size a ≤ S8192x3x2048.size a
  hwx0_0 : ∀ i : grid0.Coords, EltTy.bits .f32 = 32 ∨ (Rect.block (s := S8192x3x2048) S128x3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S1x3x2048.size a
  hwx0_1 : ∀ i : grid0.Coords, EltTy.bits .f32 = 32 ∨ (Rect.block (s := S1x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3x2048.size a ≤ S8192x3x2048.size a
  hwx0_2 : ∀ i : grid0.Coords, EltTy.bits .f32 = 32 ∨ (Rect.block (s := S8192x3x2048) S128x3x2048.size (cc0_transform_2 i) (hinb0_2 i)).WholeWords (EltTy.packing .f32)

variable [Facts₀]

abbrev win0_0 : Pipeline.Window sig grid0 :=
  Pipeline.Window.ofSpec (Memref.whole main_v0) S128x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S24576x2048 : Shape := ⟨2, ![24576, 2048]⟩
abbrev S1x3x2048 : Shape := ⟨3, ![1, 3, 2048]⟩
abbrev S8192x3x2048 : Shape := ⟨3, ![8192, 3, 2048]⟩
abbrev S8192x1x2048 : Shape := ⟨3, ![8192, 1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 274
  | .vmem => 0
  | .smem => 0
  | _ => 0

abbrev hbmTy0_0 (i : Nat) : BufTy := match i % 128 with
  | 0 => ⟨S24576x2048, .f32⟩
  | 1 => ⟨S1x3x2048, .f32⟩
  | 2 => ⟨S8192x3x2048, .f32⟩
  | 3 => ⟨S8192x3x2048, .f32⟩
  | 4 => ⟨S8192x3x2048, .f32⟩
  | 5 => ⟨S8192x1x2048, .f32⟩
  | 6 => ⟨S8192x2048, .f32⟩
  | 7 => ⟨S8192x1x2048, .f32⟩
  | 8 => ⟨S8192x2048, .f32⟩
  | 9 => ⟨S8192x1x2048, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S8192x2048, .f32⟩
  | 16 => ⟨S_, .f32⟩
  | 17 => ⟨S8192, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S_, .f32⟩
  | 32 => ⟨S8192, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x2048, .f32⟩
  | 42 => ⟨S_, .f32⟩
  | 43 => ⟨S8192, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x2048, .f32⟩
  | 50 => ⟨S_, .f32⟩
  | 51 => ⟨S8192, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x2048, .f32⟩
  | 58 => ⟨S_, .f32⟩
  | 59 => ⟨S8192, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x2048, .f32⟩
  | 66 => ⟨S_, .f32⟩
  | 67 => ⟨S8192, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x2048, .f32⟩
  | 78 => ⟨S_, .f32⟩
  | 79 => ⟨S8192, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x2048, .f32⟩
  | 91 => ⟨S8192x2048, .f32⟩
  | 92 => ⟨S8192x2048, .f32⟩
  | 93 => ⟨S8192x1, .f32⟩
  | 94 => ⟨S8192x2048, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S_, .f32⟩
  | 103 => ⟨S8192, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x2048, .f32⟩
  | 113 => ⟨S_, .f32⟩
  | 114 => ⟨S8192x2048, .f32⟩
  | 115 => ⟨S8192x2048, .f32⟩
  | 116 => ⟨S8192x2048, .f32⟩
  | 117 => ⟨S_, .f32⟩
  | 118 => ⟨S8192, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x2048, .f32⟩
  | _ => ⟨S24576x2048, .f32⟩

abbrev hbmTy0_1 (i : Nat) : BufTy := match i % 128 with
  | 0 => ⟨S_, .f32⟩
  | 1 => ⟨S8192, .f32⟩
  | 2 => ⟨S8192x1, .f32⟩
  | 3 => ⟨S8192x1, .f32⟩
  | 4 => ⟨S_, .f32⟩
  | 5 => ⟨S8192x1, .f32⟩
  | 6 => ⟨S8192x1, .f32⟩
  | 7 => ⟨S8192x2048, .f32⟩
  | 8 => ⟨S_, .f32⟩
  | 9 => ⟨S8192, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x2048, .f32⟩
  | 16 => ⟨S_, .f32⟩
  | 17 => ⟨S8192, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x2048, .f32⟩
  | 24 => ⟨S_, .f32⟩
  | 25 => ⟨S8192, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x2048, .f32⟩
  | 36 => ⟨S_, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x2048, .f32⟩
  | 49 => ⟨S8192x2048, .f32⟩
  | 50 => ⟨S8192x2048, .f32⟩
  | 51 => ⟨S8192x1, .f32⟩
  | 52 => ⟨S8192x2048, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S_, .f32⟩
  | 61 => ⟨S8192, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x2048, .f32⟩
  | 71 => ⟨S_, .f32⟩
  | 72 => ⟨S8192x2048, .f32⟩
  | 73 => ⟨S8192x2048, .f32⟩
  | 74 => ⟨S8192x2048, .f32⟩
  | 75 => ⟨S_, .f32⟩
  | 76 => ⟨S8192, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x2048, .f32⟩
  | 86 => ⟨S_, .f32⟩
  | 87 => ⟨S8192, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x2048, .f32⟩
  | 94 => ⟨S_, .f32⟩
  | 95 => ⟨S8192, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x2048, .f32⟩
  | 102 => ⟨S_, .f32⟩
  | 103 => ⟨S8192, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x2048, .f32⟩
  | 110 => ⟨S_, .f32⟩
  | 111 => ⟨S8192, .f32⟩
  | 112 => ⟨S8192x1, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x2048, .f32⟩
  | 122 => ⟨S_, .f32⟩
  | 123 => ⟨S8192, .f32⟩
  | 124 => ⟨S8192x1, .f32⟩
  | 125 => ⟨S8192x1, .f32⟩
  | 126 => ⟨S8192x1, .f32⟩
  | 127 => ⟨S_, .f32⟩
  | _ => ⟨S24576x2048, .f32⟩

abbrev hbmTy0_2 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x2048, .f32⟩
  | 7 => ⟨S8192x2048, .f32⟩
  | 8 => ⟨S8192x2048, .f32⟩
  | 9 => ⟨S8192x1, .f32⟩
  | 10 => ⟨S8192x2048, .f32⟩
  | 11 => ⟨S8192x2048, .f32⟩
  | 12 => ⟨S8192x2048, .f32⟩
  | 13 => ⟨S8192x1x2048, .f32⟩
  | 14 => ⟨S8192x1x2048, .f32⟩
  | 15 => ⟨S8192x1x2048, .f32⟩
  | 16 => ⟨S8192x3x2048, .f32⟩
  | 17 => ⟨S24576x2048, .f32⟩
  | _ => ⟨S24576x2048, .f32⟩

abbrev hbmTy (i : Nat) : BufTy := match i / 128 with
  | 0 => hbmTy0_0 i
  | 1 => hbmTy0_1 i
  | 2 => hbmTy0_2 i
  | _ => ⟨S24576x2048, .f32⟩

abbrev bufTy : (tb : Table) → Fin (tcTables nBuf tb) → BufTy
  | .hbm, ⟨i, _⟩ => hbmTy i
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_14 : Ref sig .tc := ⟨.hbm, 71, rfl⟩
abbrev main_v54 : Ref sig .tc := ⟨.hbm, 72, rfl⟩
abbrev main_v55 : Ref sig .tc := ⟨.hbm, 73, rfl⟩
abbrev main_cst_15 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_cst_18 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_19 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_20 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_21 : Ref sig .tc := ⟨.hbm, 106, rfl⟩
abbrev main_v82 : Ref sig .tc := ⟨.hbm, 107, rfl⟩
abbrev main_v83 : Ref sig .tc := ⟨.hbm, 108, rfl⟩
abbrev main_cst_22 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_23 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_24 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_25 : Ref sig .tc := ⟨.hbm, 121, rfl⟩
abbrev main_v93 : Ref sig .tc := ⟨.hbm, 122, rfl⟩
abbrev main_v94 : Ref sig .tc := ⟨.hbm, 123, rfl⟩
abbrev main_cst_26 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_27 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_28 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_29 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_30 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_31 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_32 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_33 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_34 : Ref sig .tc := ⟨.hbm, 157, rfl⟩
abbrev main_v120 : Ref sig .tc := ⟨.hbm, 158, rfl⟩
abbrev main_v121 : Ref sig .tc := ⟨.hbm, 159, rfl⟩
abbrev main_cst_35 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_36 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_37 : Ref sig .tc := ⟨.hbm, 169, rfl⟩
abbrev main_v129 : Ref sig .tc := ⟨.hbm, 170, rfl⟩
abbrev main_v130 : Ref sig .tc := ⟨.hbm, 171, rfl⟩
abbrev main_cst_38 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_39 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_40 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_41 : Ref sig .tc := ⟨.hbm, 192, rfl⟩
abbrev main_v148 : Ref sig .tc := ⟨.hbm, 193, rfl⟩
abbrev main_v149 : Ref sig .tc := ⟨.hbm, 194, rfl⟩
abbrev main_cst_42 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_43 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_44 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_45 : Ref sig .tc := ⟨.hbm, 207, rfl⟩
abbrev main_v159 : Ref sig .tc := ⟨.hbm, 208, rfl⟩
abbrev main_v160 : Ref sig .tc := ⟨.hbm, 209, rfl⟩
abbrev main_cst_46 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_47 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_48 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_49 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_50 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_51 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_52 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_53 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_54 : Ref sig .tc := ⟨.hbm, 243, rfl⟩
abbrev main_v186 : Ref sig .tc := ⟨.hbm, 244, rfl⟩
abbrev main_v187 : Ref sig .tc := ⟨.hbm, 245, rfl⟩
abbrev main_cst_55 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_56 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_57 : Ref sig .tc := ⟨.hbm, 255, rfl⟩
abbrev main_v195 : Ref sig .tc := ⟨.hbm, 256, rfl⟩
abbrev main_v196 : Ref sig .tc := ⟨.hbm, 257, rfl⟩
abbrev main_cst_58 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩

abbrev nD : Nat := 1
abbrev τ : Topo := Topo.v7x

variable {F : FTy → Type} [FloatOps F]

class Facts₀ : Prop where
  shapeCasts_S24576x2048_S8192x3x2048 : S24576x2048.ShapeCasts S8192x3x2048
  bcast_S1x3x2048_S8192x3x2048_0_1_2 : S1x3x2048.BroadcastsInDim S8192x3x2048 (![0, 1, 2] : Fin 3 → Fin S8192x3x2048.rank)
  slices_S8192x3x2048_S8192x1x2048_0_0_0 : S8192x3x2048.Slices ![0, 0, 0] S8192x1x2048
  shapeCasts_S8192x1x2048_S8192x2048 : S8192x1x2048.ShapeCasts S8192x2048
  slices_S8192x3x2048_S8192x1x2048_0_1_0 : S8192x3x2048.Slices ![0, 1, 0] S8192x1x2048
  slices_S8192x3x2048_S8192x1x2048_0_2_0 : S8192x3x2048.Slices ![0, 2, 0] S8192x1x2048
  bcast_S_S8192x2048 : S_.BroadcastsInDim S8192x2048 (![] : Fin 0 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S8192x2048_S8192x1x2048_0_2 : S8192x2048.BroadcastsInDim S8192x1x2048 (![0, 2] : Fin 2 → Fin S8192x1x2048.rank)
  concatenates_S8192x1x2048_S8192x1x2048_S8192x1x2048_S8192x3x2048_d1 : Shape.Concatenates [S8192x1x2048, S8192x1x2048, S8192x1x2048] S8192x3x2048 1
  shapeCasts_S8192x3x2048_S24576x2048 : S8192x3x2048.ShapeCasts S24576x2048

variable [Facts₀]

class Facts : Prop extends Facts₀ where

variable [Facts]
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.LibHostKeepdims.lean ====
/- Row-wise layout operations of a reference written with `keepdims`, and the unit-axis casts and the
   three-piece stack both sides of a row-wise kernel meet, each read at an index written by coordinates.

   The host spells a kept unit axis with `broadcast_in_dim`: a column [a] as [a, 1] (dims [0]), a column [a, 1]
   along its unit axis to [a, b] (dims [0, 1]), a matrix [a, c] as [a, 1, c] (dims [0, 2]), and one row block
   [1, b, c] over a rows (dims [0, 1, 2]). Its sum over the last axis of a rank-2 array is the initial value plus
   the sum over that axis's coordinate. A middle unit axis is dropped by a cast [a, 1, c] → [a, c] and
   [1, 1, c] → [c]; a slice of width one along the middle axis picks that coordinate; three [a, 1, c] pieces
   stacked along the middle axis read, at (r, s, q), piece s at (r, 0, q). Every shape fact is a variable, so a
   lemma applies whatever proof term a program carries for it. -/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.HostKeepdims

open Idealize.ShloMosaic Idealize.ShloMosaic.ValueIdx

variable {α : Type}

/-! ## A middle unit axis dropped -/

/-- [a, 1, c] viewed as [a, c] reads, at (r, q), the operand at (r, 0, q). -/
theorem shapeCast_a1c_ac_apply {a c : ℕ} (x : (⟨3, ![a, 1, c]⟩ : Shape).Idx → α)
    (h : (⟨3, ![a, 1, c]⟩ : Shape).ShapeCasts ⟨2, ![a, c]⟩) (r : Fin a) (q : Fin c) :
    shapeCast ⟨2, ![a, c]⟩ x h (ix2 r q) = x (ix3 r (0 : Fin 1) q) :=
  shapeCast_apply x h _ _ (by
    rw [Shape.rowMajor_val_three, Shape.rowMajor_val_two]
    show (r.val * 1 + 0) * c + q.val = r.val * c + q.val
    rw [Nat.mul_one, Nat.add_zero])

/-- [1, 1, c] viewed as [c] reads, at q, the operand at (0, 0, q). -/
theorem shapeCast_11c_c_apply {c : ℕ} (x : (⟨3, ![1, 1, c]⟩ : Shape).Idx → α)
    (h : (⟨3, ![1, 1, c]⟩ : Shape).ShapeCasts ⟨1, ![c]⟩) (q : Fin c) :
    shapeCast ⟨1, ![c]⟩ x h (ix1 q) = x (ix3 (0 : Fin 1) (0 : Fin 1) q) :=
  shapeCast_apply x h _ _ (by
    rw [Shape.rowMajor_val_three, Shape.rowMajor_val_one]
    show (0 * 1 + 0) * c + q.val = q.val
    omega)

/-- A slice of width one along the middle axis, from k, reads, at (r, u, q), the operand at (r, k, q). -/
theorem slice_mid_unit_apply {a b c : ℕ} (k : Fin b) (x : (⟨3, ![a, b, c]⟩ : Shape).Idx → α)
    (h : (⟨3, ![a, b, c]⟩ : Shape).Slices ![0, k.val, 0] ⟨3, ![a, 1, c]⟩) (r : Fin a) (u : Fin 1) (q : Fin c) :
    extractStridedSlice ⟨3, ![a, 1, c]⟩ ![0, k.val, 0] x h (ix3 r u q) = x (ix3 r k q) :=
  slice3_axis1_apply k.val x h r u q k (by have : u.val = 0 := by omega
                                           rw [this, Nat.add_zero])

/-- The same at the three literal offsets of a middle axis of extent three, as the programs print them. -/
theorem slice_row0_apply {a c : ℕ} (x : (⟨3, ![a, 3, c]⟩ : Shape).Idx → α)
    (h : (⟨3, ![a, 3, c]⟩ : Shape).Slices ![0, 0, 0] ⟨3, ![a, 1, c]⟩) (r : Fin a) (u : Fin 1) (q : Fin c) :
    extractStridedSlice ⟨3, ![a, 1, c]⟩ ![0, 0, 0] x h (ix3 r u q) = x (ix3 r (0 : Fin 3) q) :=
  slice_mid_unit_apply (0 : Fin 3) x h r u q
theorem slice_row1_apply {a c : ℕ} (x : (⟨3, ![a, 3, c]⟩ : Shape).Idx → α)
    (h : (⟨3, ![a, 3, c]⟩ : Shape).Slices ![0, 1, 0] ⟨3, ![a, 1, c]⟩) (r : Fin a) (u : Fin 1) (q : Fin c) :
    extractStridedSlice ⟨3, ![a, 1, c]⟩ ![0, 1, 0] x h (ix3 r u q) = x (ix3 r (1 : Fin 3) q) :=
  slice_mid_unit_apply (1 : Fin 3) x h r u q
theorem slice_row2_apply {a c : ℕ} (x : (⟨3, ![a, 3, c]⟩ : Shape).Idx → α)
    (h : (⟨3, ![a, 3, c]⟩ : Shape).Slices ![0, 2, 0] ⟨3, ![a, 1, c]⟩) (r : Fin a) (u : Fin 1) (q : Fin c) :
    extractStridedSlice ⟨3, ![a, 1, c]⟩ ![0, 2, 0] x h (ix3 r u q) = x (ix3 r (2 : Fin 3) q) :=
  slice_mid_unit_apply (2 : Fin 3) x h r u q

/-! ## Square roots at an index -/

/-- A kernel's square root at an index is the exact square root of the element. -/
theorem sqrt_apply {s : Shape} {φ : FTy} (x : FVec Ideal s φ) (i : s.Idx) : sqrt x i = Ideal.sqrt (x i) := rfl

/-- The host's square root at an index is the same function of the element. -/
theorem hostSqrt_apply {s : Shape} {φ : FTy} (x : FVec Ideal s φ) (i : s.Idx) : Host.sqrt x i = Ideal.sqrt (x i) := rfl

/-! ## The host's kept unit axes -/

/-- A column [a] as [a, 1] (dims [0]) reads, at (r, u), the column at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) :=
  broadcastInDim_apply _ h x _ _ (fun ax => match ax with
    | ⟨0, _⟩ => by
      have := r.isLt
      show r.val = if a = 1 then 0 else r.val
      split <;> omega)

/-- A column [a, 1] along its unit axis to [a, b] (dims [0, 1]) reads, at (r, k), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (k : Fin b) :
    broadcastInDim ⟨2, ![a, b]⟩ ![0, 1] h x (ix2 r k) = x (ix2 r (0 : Fin 1)) :=
  broadcastInDim_apply _ h x _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- A matrix [a, c] as [a, 1, c] (dims [0, 2]) reads, at (r, u, q), the matrix at (r, q). -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (r : Fin a) (u : Fin 1) (q : Fin c) :
    broadcastInDim ⟨3, ![a, 1, c]⟩ ![0, 2] h x (ix3 r u q) = x (ix2 r q) :=
  broadcastInDim_apply _ h x _ _ (fun ax => match ax with
    | ⟨0, _⟩ => by
      have := r.isLt
      show r.val = if a = 1 then 0 else r.val
      split <;> omega
    | ⟨1, _⟩ => by
      have := q.isLt
      show q.val = if c = 1 then 0 else q.val
      split <;> omega)

/-- One row block [1, b, c] over a rows (dims [0, 1, 2]) reads, at (r, k, q), the block at (0, k, q). -/
theorem broadcastInDim_1bc_abc_apply {a b c : ℕ} (x : (⟨3, ![1, b, c]⟩ : Shape).Idx → α)
    (h : (⟨3, ![1, b, c]⟩ : Shape).BroadcastsInDim ⟨3, ![a, b, c]⟩ ![0, 1, 2]) (r : Fin a) (k : Fin b) (q : Fin c) :
    broadcastInDim ⟨3, ![a, b, c]⟩ ![0, 1, 2] h x (ix3 r k q) = x (ix3 (0 : Fin 1) k q) :=
  broadcastInDim_apply _ h x _ _ (fun ax => match ax with
    | ⟨0, _⟩ => by
      show 0 = if (1 : ℕ) = 1 then 0 else r.val
      rw [if_pos rfl]
    | ⟨1, _⟩ => by
      have := k.isLt
      show k.val = if b = 1 then 0 else k.val
      split <;> omega
    | ⟨2, _⟩ => by
      have := q.isLt
      show q.val = if c = 1 then 0 else q.val
      split <;> omega)

/-! ## The host's sum over the last of two axes -/

/-- The index over (r) with k put back on the last of two axes is (r, k). -/
theorem lift_row {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

variable {φ : FTy}

/-- The host's sum over the last of two axes, at (r): the initial value plus the sum over k of the source at (r, k). -/
theorem host_sum_last2_apply {a b : ℕ} {u : Shape} (x : FVec Ideal ⟨2, ![a, b]⟩ φ) (init : u.Idx → Ideal φ)
    (h' : (⟨2, ![a, b]⟩ : Shape).ReducesTo [1] ⟨1, ![a]⟩) (hu : 0 < u.numel) (r : Fin a) :
    Host.reduceAdd x init h' hu (ix1 r) = init (Shape.Idx.first hu) + ∑ k : Fin b, x (ix2 r k) := by
  have h : (⟨2, ![a, b]⟩ : Shape).Reduces [1] ⟨1, ![a]⟩ := ⟨h'.1, Nat.one_pos, h'.2⟩
  refine (Ideal.hostReduceAdd_single h' h x _ (ix1 r)).trans ?_
  exact congrArg (fun z => init (Shape.Idx.first hu) + z)
    (Finset.sum_congr rfl fun k _ => congrArg x (lift_row h r k))

/-! ## Three unit pieces stacked along the middle axis -/

/-- Three [a, 1, c] pieces stacked along the middle axis read, at (r, s, q), piece s at (r, 0, q). -/
theorem stack3_mid_apply {a c : ℕ} (x0 x1 x2 : (⟨3, ![a, 1, c]⟩ : Shape).Idx → α)
    (h : Shape.Concatenates [(⟨3, ![a, 1, c]⟩ : Shape), ⟨3, ![a, 1, c]⟩, ⟨3, ![a, 1, c]⟩] ⟨3, ![a, 3, c]⟩ 1)
    (r : Fin a) (s : Fin 3) (q : Fin c) :
    concatenate ⟨3, ![a, 3, c]⟩ 1 [⟨⟨3, ![a, 1, c]⟩, x0⟩, ⟨⟨3, ![a, 1, c]⟩, x1⟩, ⟨⟨3, ![a, 1, c]⟩, x2⟩] h (ix3 r s q)
      = (match s with | 0 => x0 | 1 => x1 | 2 => x2) (ix3 r (0 : Fin 1) q) := by
  have hi : ∀ b : Fin 3, b.cast rfl ≠ (1 : Fin 3) →
      ((ix3 r (0 : Fin 1) q : (⟨3, ![a, 1, c]⟩ : Shape).Idx) b).val
        = ((ix3 r s q : (⟨3, ![a, 3, c]⟩ : Shape).Idx) (b.cast rfl)).val := fun b hb => by
    match b with
    | ⟨0, _⟩ => rfl
    | ⟨1, _⟩ => exact absurd rfl hb
    | ⟨2, _⟩ => rfl
  match s with
  | ⟨0, _⟩ =>
    exact concatenate_apply_piece (t := ⟨3, ![a, 3, c]⟩) (1 : Fin 3) [⟨⟨3, ![a, 1, c]⟩, x0⟩, ⟨⟨3, ![a, 1, c]⟩, x1⟩, ⟨⟨3, ![a, 1, c]⟩, x2⟩] h _ 0 (by simp) _ x0 rfl rfl 0 rfl (ix3 r (0 : Fin 1) q) hi rfl
  | ⟨1, _⟩ =>
    exact concatenate_apply_piece (t := ⟨3, ![a, 3, c]⟩) (1 : Fin 3) [⟨⟨3, ![a, 1, c]⟩, x0⟩, ⟨⟨3, ![a, 1, c]⟩, x1⟩, ⟨⟨3, ![a, 1, c]⟩, x2⟩] h _ 1 (by simp) _ x1 rfl rfl 1 rfl (ix3 r (0 : Fin 1) q) hi rfl
  | ⟨2, _⟩ =>
    exact concatenate_apply_piece (t := ⟨3, ![a, 3, c]⟩) (1 : Fin 3) [⟨⟨3, ![a, 1, c]⟩, x0⟩, ⟨⟨3, ![a, 1, c]⟩, x1⟩, ⟨⟨3, ![a, 1, c]⟩, x2⟩] h _ 2 (by simp) _ x2 rfl rfl 2 rfl (ix3 r (0 : Fin 1) q) hi rfl

/-- The same at the three literal rows. -/
theorem stack3_row0_apply {a c : ℕ} (x0 x1 x2 : (⟨3, ![a, 1, c]⟩ : Shape).Idx → α)
    (h : Shape.Concatenates [(⟨3, ![a, 1, c]⟩ : Shape), ⟨3, ![a, 1, c]⟩, ⟨3, ![a, 1, c]⟩] ⟨3, ![a, 3, c]⟩ 1)
    (r : Fin a) (q : Fin c) :
    concatenate ⟨3, ![a, 3, c]⟩ 1 [⟨⟨3, ![a, 1, c]⟩, x0⟩, ⟨⟨3, ![a, 1, c]⟩, x1⟩, ⟨⟨3, ![a, 1, c]⟩, x2⟩] h (ix3 r (0 : Fin 3) q)
      = x0 (ix3 r (0 : Fin 1) q) :=
  stack3_mid_apply x0 x1 x2 h r 0 q
theorem stack3_row1_apply {a c : ℕ} (x0 x1 x2 : (⟨3, ![a, 1, c]⟩ : Shape).Idx → α)
    (h : Shape.Concatenates [(⟨3, ![a, 1, c]⟩ : Shape), ⟨3, ![a, 1, c]⟩, ⟨3, ![a, 1, c]⟩] ⟨3, ![a, 3, c]⟩ 1)
    (r : Fin a) (q : Fin c) :
    concatenate ⟨3, ![a, 3, c]⟩ 1 [⟨⟨3, ![a, 1, c]⟩, x0⟩, ⟨⟨3, ![a, 1, c]⟩, x1⟩, ⟨⟨3, ![a, 1, c]⟩, x2⟩] h (ix3 r (1 : Fin 3) q)
      = x1 (ix3 r (0 : Fin 1) q) :=
  stack3_mid_apply x0 x1 x2 h r 1 q
theorem stack3_row2_apply {a c : ℕ} (x0 x1 x2 : (⟨3, ![a, 1, c]⟩ : Shape).Idx → α)
    (h : Shape.Concatenates [(⟨3, ![a, 1, c]⟩ : Shape), ⟨3, ![a, 1, c]⟩, ⟨3, ![a, 1, c]⟩] ⟨3, ![a, 3, c]⟩ 1)
    (r : Fin a) (q : Fin c) :
    concatenate ⟨3, ![a, 3, c]⟩ 1 [⟨⟨3, ![a, 1, c]⟩, x0⟩, ⟨⟨3, ![a, 1, c]⟩, x1⟩, ⟨⟨3, ![a, 1, c]⟩, x2⟩] h (ix3 r (2 : Fin 3) q)
      = x2 (ix3 r (0 : Fin 1) q) :=
  stack3_mid_apply x0 x1 x2 h r 2 q

end Cert.HostKeepdims

end
-- ==== Proof.Spec.lean ====
/- What the correlation kernel computes, as one function of the argument arrays.

   The input is read as B triples of rows (x₀, x₁, x₂), each of length 2048; every row first gets its own
   position row added, f_k = x_k + pos_k. For a row a and two companions b, c the result row is

     sim a b c = a + (w(a,b) + v(a,b)) · b + (w(a,c) + v(a,c)) · c,

   with w(a,b) = 1 / (1 + √Σ (a − b + ε)²), the weight of the distance of the two rows, and
   v(a,b) = ½ + ½ · (Σ a·b) / (max(√Σ a², δ) · max(√Σ b², δ)), half of one plus their cosine. Triple n of the
   result is (sim f₀ f₁ f₂, sim f₁ f₀ f₂, sim f₂ f₀ f₁). Nothing couples two triples, which is why a block of
   triples of the result is the same function of the same block of the input. ε, δ, 1 and ½ are the float
   words both programs carry, read at their exact binary values. -/
import Idealize.ShloMosaic.Lib.ValueIdx
import Idealize.ShloMosaic.PureOps.Ideal

noncomputable section

open scoped BigOperators

namespace Cert.Correlation

open Idealize.ShloMosaic Idealize.ShloMosaic.ValueIdx

/-- The row length. -/
abbrev D : ℕ := 2048

/-- The weight of the distance of two rows: 1 / (1 + √Σ (a − b + ε)²). -/
def distW (a b : Fin D → EReal) : EReal :=
  Ideal.div (Ideal.ofBits .f32 0x3F800000#32)
    (Ideal.ofBits .f32 0x3F800000#32
      + Ideal.sqrt (∑ k : Fin D, (a k - b k + Ideal.ofBits .f32 0x358637BD#32) * (a k - b k + Ideal.ofBits .f32 0x358637BD#32)))

/-- A row's length, kept away from zero: max(√Σ a², δ). -/
def rowNorm (a : Fin D → EReal) : EReal :=
  max (Ideal.sqrt (∑ k : Fin D, a k * a k)) (Ideal.ofBits .f32 0x322BCC77#32)

/-- Half of one plus the cosine of two rows: ½ + ½ · (Σ a·b) / (|a| · |b|). -/
def cosW (a b : Fin D → EReal) : EReal :=
  Ideal.ofBits .f32 0x3F000000#32
    + Ideal.ofBits .f32 0x3F000000#32 * Ideal.div (∑ k : Fin D, a k * b k) (rowNorm a * rowNorm b)

/-- A row combined with its two companions. -/
def simRow (a b c : Fin D → EReal) (d : Fin D) : EReal :=
  a d + (distW a b + cosW a b) * b d + (distW a c + cosW a c) * c d

/-- Row k of triple n, with its position row added. -/
def shifted {n : ℕ} (X : (⟨3, ![n, 3, D]⟩ : Shape).Idx → EReal) (P : (⟨3, ![1, 3, D]⟩ : Shape).Idx → EReal)
    (r : Fin n) (k : Fin 3) : Fin D → EReal :=
  fun d => X (ix3 r k d) + P (ix3 (0 : Fin 1) k d)

/-- The three result rows of a triple: each row with the other two, in the order the programs take them. -/
def triple (f : Fin 3 → Fin D → EReal) : Fin 3 → Fin D → EReal :=
  ![simRow (f 0) (f 1) (f 2), simRow (f 1) (f 0) (f 2), simRow (f 2) (f 0) (f 1)]

/-- The result, over any number of triples. -/
def G {n : ℕ} (X : (⟨3, ![n, 3, D]⟩ : Shape).Idx → EReal) (P : (⟨3, ![1, 3, D]⟩ : Shape).Idx → EReal) :
    (⟨3, ![n, 3, D]⟩ : Shape).Idx → EReal :=
  fun j => triple (shifted X P (j 0)) (j 1) (j 2)

theorem G_apply {n : ℕ} (X : (⟨3, ![n, 3, D]⟩ : Shape).Idx → EReal) (P : (⟨3, ![1, 3, D]⟩ : Shape).Idx → EReal)
    (r : Fin n) (s : Fin 3) (d : Fin D) : G X P (ix3 r s d) = triple (shifted X P r) s d := rfl

/-- A block of triples of the result is the result of that block of the input: triple r of the block's result
    reads only triple r of the block. -/
theorem G_block {n n' : ℕ} (X : (⟨3, ![n, 3, D]⟩ : Shape).Idx → EReal) (X' : (⟨3, ![n', 3, D]⟩ : Shape).Idx → EReal)
    (P : (⟨3, ![1, 3, D]⟩ : Shape).Idx → EReal) (r : Fin n) (r' : Fin n')
    (hX : ∀ (k : Fin 3) (d : Fin D), X' (ix3 r' k d) = X (ix3 r k d)) (s : Fin 3) (d : Fin D) :
    G X' P (ix3 r' s d) = G X P (ix3 r s d) := by
  have hf : shifted X' P r' = shifted X P r := by
    funext k d; unfold shifted; rw [hX k d]
  rw [G_apply, G_apply, hf]

end Cert.Correlation

end
-- ==== Proof.KernelBlock.lean ====
/- A block of the kernel's result is the correlation of that block of its input.

   The body loads a block of 128 triples and the position rows, forms the three shifted rows, computes for each
   row the distance weights and cosine weights with its two companions as columns of row sums, combines, and
   stacks the three result rows back into triples. Read at (p, s, d) — triple p of the block, row s, column d —
   every operation is pointwise, a unit-axis cast or broadcast, or a sum along a row, so the value there is the
   row-level function of triple p's three shifted rows: `Correlation.G` of the two loaded blocks. -/
import proofs.«161562_j58420145160370_1_alg».proof.Proof.Gen.KernelIdeal.Frame
import proofs.«161562_j58420145160370_1_alg».proof.Proof.LibKeepdims
import proofs.«161562_j58420145160370_1_alg».proof.Proof.LibHostKeepdims
import proofs.«161562_j58420145160370_1_alg».proof.Proof.Spec

set_option maxRecDepth 16384

noncomputable section

open scoped BigOperators

namespace Cert.KernelIdeal.Block

open Idealize.ShloMosaic Idealize.ShloMosaic.ValueIdx Idealize.ShloMosaic.TcCoe Idealize.SL.Sem
open Cert.KernelIdeal Cert.KernelIdeal.Gen Cert.Keepdims Cert.HostKeepdims Cert.Correlation

/-- A row sum as the kernel prints it (the accumulator word zero, its side condition spelt `0 = 0`), at (r): the
    sum over k of the source at (r, k). -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) :=
  sum_last2_apply src _ h hφ hacc r

/-- Push an index through the pointwise operations, the constants and the unit-axis layout operations. -/
macro "push_index" : tactic => `(tactic| (
  simp only [addf_apply, subf_apply, mulf_apply, divf_apply, maximumf_apply, broadcast_apply, sqrt_apply, Ideal.ofBits_def,
    shapeCast_a_a1_apply, broadcastTo_a1_ab_apply, shapeCast_a1c_ac_apply, slice_row0_apply, slice_row1_apply,
    slice_row2_apply, shapeCast_self, broadcastTo_1b_ab_apply, shapeCast_a_1a_apply, shapeCast_11c_c_apply,
    shapeCast_ac_a1c_apply]))

variable (x0 : Vec Ideal S128x3x2048 .f32) (x1 : Vec Ideal S1x3x2048 .f32)

/-- The three shifted rows of triple p of a block. -/
theorem pay2_apply (p : Fin 128) (d : Fin 2048) : k0_pay2 (F := Ideal) x0 x1 (ix2 p d) = shifted x0 x1 p 0 d := by
  unfold k0_pay2 k0_pay1 shifted; push_index
theorem pay3_apply (p : Fin 128) (d : Fin 2048) : k0_pay3 (F := Ideal) x0 x1 (ix2 p d) = shifted x0 x1 p 1 d := by
  unfold k0_pay3 k0_pay1 shifted; push_index
theorem pay4_apply (p : Fin 128) (d : Fin 2048) : k0_pay4 (F := Ideal) x0 x1 (ix2 p d) = shifted x0 x1 p 2 d := by
  unfold k0_pay4 k0_pay1 shifted; push_index

/-- Row 0 of triple p: the first shifted row with the second and the third. -/
theorem block_row0 (p : Fin 128) (d : Fin 2048) :
    k0_pay8 (F := Ideal) (k0_pay2 x0 x1) (k0_pay3 x0 x1) (k0_pay4 x0 x1) (k0_pay5 x0 x1) (k0_pay6 x0 x1) k0_pay7 (ix2 p d)
      = simRow (shifted x0 x1 p 0) (shifted x0 x1 p 1) (shifted x0 x1 p 2) d := by
  unfold k0_pay8 k0_pay5 k0_pay6 k0_pay7 simRow distW cosW rowNorm
  push_index
  repeat rw [rowSum_apply]
  simp only [mulf_apply, addf_apply, subf_apply, broadcast_apply, Ideal.ofBits_def, pay2_apply, pay3_apply, pay4_apply]

/-- Row 1 of triple p: the second shifted row with the first and the third. -/
theorem block_row1 (p : Fin 128) (d : Fin 2048) :
    k0_pay16 (F := Ideal) (k0_pay2 x0 x1) (k0_pay3 x0 x1) (k0_pay4 x0 x1)
        (k0_pay11 (k0_pay9 (k0_pay2 x0 x1) (k0_pay3 x0 x1)) k0_pay10) (k0_pay12 (k0_pay3 x0 x1) (k0_pay4 x0 x1))
        (k0_pay13 (k0_pay3 x0 x1)) (k0_pay14 (k0_pay4 x0 x1)) (k0_pay15 (k0_pay2 x0 x1) (k0_pay3 x0 x1)) (ix2 p d)
      = simRow (shifted x0 x1 p 1) (shifted x0 x1 p 0) (shifted x0 x1 p 2) d := by
  unfold k0_pay16 k0_pay11 k0_pay9 k0_pay10 k0_pay12 k0_pay13 k0_pay14 k0_pay15 simRow distW cosW rowNorm
  unfold k0_pay13
  push_index
  repeat rw [rowSum_apply]
  simp only [mulf_apply, addf_apply, subf_apply, broadcast_apply, Ideal.ofBits_def, pay2_apply, pay3_apply, pay4_apply]

/-- The stacked result at rows 0 and 1 of triple p is what was stacked there. -/
theorem stacked_row0 (v9 v16 v23 v89 v155 : FVec Ideal S128x2048 .f32) (v169 v177 v181 v182 : FVec Ideal S128x1 .f32)
    (p : Fin 128) (d : Fin 2048) :
    k0_pay21 (F := Ideal) v9 v16 v23 v89 v155 v169 v177 v181 v182 (ix3 p (0 : Fin 3) d) = v89 (ix2 p d) := by
  unfold k0_pay21
  simp only []
  rw [stack3_row0_apply, shapeCast_ac_a1c_apply]
theorem stacked_row1 (v9 v16 v23 v89 v155 : FVec Ideal S128x2048 .f32) (v169 v177 v181 v182 : FVec Ideal S128x1 .f32)
    (p : Fin 128) (d : Fin 2048) :
    k0_pay21 (F := Ideal) v9 v16 v23 v89 v155 v169 v177 v181 v182 (ix3 p (1 : Fin 3) d) = v155 (ix2 p d) := by
  unfold k0_pay21
  simp only []
  rw [stack3_row1_apply, shapeCast_ac_a1c_apply]

/-- Row 2 of triple p: the third shifted row with the first and the second. -/
theorem block_row2 (v89 v155 : FVec Ideal S128x2048 .f32) (p : Fin 128) (d : Fin 2048) :
    k0_pay21 (F := Ideal) (k0_pay2 x0 x1) (k0_pay3 x0 x1) (k0_pay4 x0 x1) v89 v155
        (k0_pay17 (k0_pay2 x0 x1) (k0_pay4 x0 x1)) (k0_pay18 (k0_pay3 x0 x1) (k0_pay4 x0 x1)) (k0_pay19 (k0_pay4 x0 x1))
        k0_pay20 (ix3 p (2 : Fin 3) d)
      = simRow (shifted x0 x1 p 2) (shifted x0 x1 p 0) (shifted x0 x1 p 1) d := by
  unfold k0_pay21 k0_pay17 k0_pay18 k0_pay19 k0_pay20 simRow distW cosW rowNorm
  simp only []
  rw [stack3_row2_apply]
  push_index
  repeat rw [rowSum_apply]
  simp only [mulf_apply, addf_apply, subf_apply, broadcast_apply, Ideal.ofBits_def, pay2_apply, pay3_apply, pay4_apply]

/-- The body's one store starts at the block's origin. -/
theorem origin3 : (![0, 0, 0] : Fin 3 → Nat) = fun _ => 0 := funext fun a => by fin_cases a <;> rfl

/-- What the body leaves in the output block: the correlation of the two loaded blocks. -/
theorem out_eq : out0_2 (F := Ideal) x0 x1 = G x0 x1 := by
  funext j
  obtain ⟨p, s, d, rfl⟩ : ∃ (p : Fin 128) (s : Fin 3) (d : Fin 2048), j = ix3 p s d := ⟨j 0, j 1, j 2, eq_ix3 j⟩
  unfold out0_2
  rw [View.canon_unit_zero origin3]
  simp only [View.ld_unit_zero (S := S128x3x2048) origin3, View.ld_unit_zero (S := S1x3x2048) origin3]
  rw [G_apply]
  match s with
  | ⟨0, _⟩ => exact (stacked_row0 _ _ _ _ _ _ _ _ _ p d).trans (block_row0 x0 x1 p d)
  | ⟨1, _⟩ => exact (stacked_row1 _ _ _ _ _ _ _ _ _ p d).trans (block_row1 x0 x1 p d)
  | ⟨2, _⟩ => exact block_row2 x0 x1 _ _ p d

end Cert.KernelIdeal.Block

end
-- ==== Proof.KernelValue.lean ====
/- The kernel's result array is the correlation of its reshaped input, reshaped back.

   @main reshapes the [3B, D] input to B triples, runs the body over 64 blocks of 128 triples, and reshapes the
   result back. Block t of the staged input is triples 128 t … 128 t + 127 of the array, the position rows are
   staged whole at every point, and the output's blocks tile its array; so what point t writes back is block t
   of `Correlation.G` of the whole arrays (a block of triples of the result depends on that block of the input
   only), and after the last point the output array is `G` of them. -/
import proofs.«161562_j58420145160370_1_alg».proof.Proof.Gen.KernelIdeal.Frame
import proofs.«161562_j58420145160370_1_alg».proof.Proof.KernelBlock
import Idealize.ShloMosaic.Lib.Pipeline.Value
import Idealize.ShloMosaic.Lib.StableHlo.Run

set_option maxRecDepth 16384

noncomputable section

namespace Cert.KernelIdeal.Whole

open Idealize.ShloMosaic Idealize.ShloMosaic.ValueIdx Idealize.ShloMosaic.TcCoe Idealize.ShloMosaic.Tactic
open Idealize.SL.Sem
open Idealize.ShloMosaic.Pipeline (Dat Cfg Window)
open Cert.KernelIdeal Cert.KernelIdeal.Gen Cert.Correlation

variable (m : (ℓ : Loc nD τ sig) → Buf (Elt Ideal) ℓ) (ρ : Dev nD → PrngReg)

/-- The input as the region finds it (B triples), the position rows, and their blocks at point t, each at its
    literal type. -/
abbrev xarr (c : Dev nD) : Vec Ideal S8192x3x2048 .f32 := V m c main_v0
abbrev parr (c : Dev nD) : Vec Ideal S1x3x2048 .f32 := V m c main_arg1
abbrev xblk (c : Dev nD) (t : Fin cfg0.N) : Vec Ideal S128x3x2048 .f32 := iblk m c 0 t
abbrev pblk (c : Dev nD) (t : Fin cfg0.N) : Vec Ideal S1x3x2048 .f32 := iblk m c 1 t

/-- The printed index maps over the grid: the input's and the output's block index is (t, 0, 0), the position
    rows' is (0, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Triple p of the input's block t is triple 128 t + p of the array. -/
theorem xblk_apply (c : Dev nD) (t : Fin cfg0.N) (p : Fin 128) (k : Fin 3) (d : Fin 2048) (r : Fin 8192)
    (hr : r.val = t.val * 128 + p.val) : xblk m c t (ix3 p k d) = xarr m c (ix3 r k d) := by
  obtain ⟨e0, e1, e2, -, -, -, -, -, -⟩ := idx_facts t
  show V m c main_v0 (((cfg0.win 0).blk t).view.emb (ix3 p k d)) = V m c main_v0 (ix3 r k d)
  refine congrArg (V m c main_v0) (funext fun a => Fin.ext ?_)
  match a with
  | ⟨0, _⟩ => show win0_0.index t (0 : Fin 3) * 128 + 1 * p.val = r.val; omega
  | ⟨1, _⟩ => show win0_0.index t (1 : Fin 3) * 3 + 1 * k.val = k.val; omega
  | ⟨2, _⟩ => show win0_0.index t (2 : Fin 3) * 2048 + 1 * d.val = d.val; omega

/-- The position rows' block is the whole array at every point. -/
theorem pblk_eq (c : Dev nD) (t : Fin cfg0.N) : pblk m c t = parr m c := by
  obtain ⟨-, -, -, e3, e4, e5, -, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 3) * 1 + 1 * (y 0).val = (y 0).val; omega
  | ⟨1, _⟩ => show win0_1.index t (1 : Fin 3) * 3 + 1 * (y 1).val = (y 1).val; omega
  | ⟨2, _⟩ => show win0_1.index t (2 : Fin 3) * 2048 + 1 * (y 2).val = (y 2).val; omega

/-- What point t writes back is block t of the correlation of the whole arrays. -/
theorem flushed_eq (c : Dev nD) (t : Fin cfg0.N) :
    (dats m 0 c).flushed 2 t = ((cfg0.win 2).blk t).view.read (Elt Ideal) (G (xarr m c) (parr m c)) := by
  show (cfg0.win 2).cut (grid0.coords t) ((dats m 0 c).after 2 t) = _
  rw [after0_2]
  show (cfg0.win 2).cut (grid0.coords t) (out0_2 (xblk m c t) (pblk m c t)) = _
  rw [Block.out_eq, pblk_eq]
  obtain ⟨-, -, -, -, -, -, e6, e7, e8⟩ := idx_facts t
  have ht : t.val < 64 := t.isLt
  funext j
  obtain ⟨p, s, d, rfl⟩ : ∃ (p : Fin 128) (s : Fin 3) (d : Fin 2048), j = ix3 p s d := ⟨j 0, j 1, j 2, eq_ix3 j⟩
  show G (xblk m c t) (parr m c) (ix3 p s d) = G (xarr m c) (parr m c) (((cfg0.win 2).blk t).view.emb (ix3 p s d))
  have hemb : ((cfg0.win 2).blk t).view.emb (ix3 p s d) = ix3 (⟨t.val * 128 + p.val, by omega⟩ : Fin 8192) s d := by
    funext a; apply Fin.ext
    match a with
    | ⟨0, _⟩ => show win0_2.index t (0 : Fin 3) * 128 + 1 * p.val = t.val * 128 + p.val; omega
    | ⟨1, _⟩ => show win0_2.index t (1 : Fin 3) * 3 + 1 * s.val = s.val; omega
    | ⟨2, _⟩ => show win0_2.index t (2 : Fin 3) * 2048 + 1 * d.val = d.val; omega
  rw [hemb]
  exact G_block (xarr m c) (xblk m c t) (parr m c) _ p (fun k d' => xblk_apply m c t p k d' _ rfl) s d

/-- An index of the output array is in point t's block iff each coordinate is in the block's range. -/
theorem mem_blk (t : Fin cfg0.N) (i : S8192x3x2048.Idx) :
    i ∈ ((cfg0.win 2).blk t).view.set ↔ ∀ a : Fin 3, win0_2.index t a * S128x3x2048.size a ≤ (i a).val
      ∧ (i a).val < win0_2.index t a * S128x3x2048.size a + S128x3x2048.size a := by
  show i ∈ ((View.whole main_v1).slice (win0_2.rect t)).set ↔ _
  rw [View.set_slice_whole, Rect.mem_set_unit]
  exact Iff.rfl

/-- The output's blocks tile its array: triple n lies in the block of point n / 128. -/
theorem cover (i : S8192x3x2048.Idx) :
    ∃ t : Fin cfg0.N, (cfg0.win 2).flush t = true ∧ i ∈ ((cfg0.win 2).blk t).view.set := by
  have h0 : (i 0).val < 8192 := (i 0).isLt
  have h1 : (i 1).val < 3 := (i 1).isLt
  have h2 : (i 2).val < 2048 := (i 2).isLt
  have hN : (i 0).val / 128 < cfg0.N := by show _ < 64; omega
  obtain ⟨-, -, -, -, -, -, e6, e7, e8⟩ := idx_facts ⟨(i 0).val / 128, hN⟩
  refine ⟨⟨(i 0).val / 128, hN⟩, flush0_2 _, ?_⟩
  rw [mem_blk]
  intro a
  match a with
  | ⟨0, _⟩ =>
    show win0_2.index ⟨(i 0).val / 128, hN⟩ (0 : Fin 3) * 128 ≤ (i 0).val
      ∧ (i 0).val < win0_2.index ⟨(i 0).val / 128, hN⟩ (0 : Fin 3) * 128 + 128
    have : (⟨(i 0).val / 128, hN⟩ : Fin cfg0.N).val = (i 0).val / 128 := rfl
    omega
  | ⟨1, _⟩ =>
    show win0_2.index ⟨(i 0).val / 128, hN⟩ (1 : Fin 3) * 3 ≤ (i 1).val
      ∧ (i 1).val < win0_2.index ⟨(i 0).val / 128, hN⟩ (1 : Fin 3) * 3 + 3
    omega
  | ⟨2, _⟩ =>
    show win0_2.index ⟨(i 0).val / 128, hN⟩ (2 : Fin 3) * 2048 ≤ (i 2).val
      ∧ (i 2).val < win0_2.index ⟨(i 0).val / 128, hN⟩ (2 : Fin 3) * 2048 + 2048
    omega

/-- After the last point the output array holds the correlation of the whole arrays. -/
theorem final (c : Dev nD) : (dats m 0 c).arrAt 2 cfg0.N = G (xarr m c) (parr m c) :=
  (dats m 0 c).arrAt_eq_of_cover 2 (G (xarr m c) (parr m c)) (fun t _ => flushed_eq m c t) cover

/-- The input as the region finds it is the launched [3B, D] array viewed as B triples: the one host line
    before the region. -/
theorem xarr_eq (c : Dev nD) :
    xarr m c = shapeCast S8192x3x2048 (m ((c.tc : Thread nD τ).loc main_arg0)) shapeCasts_S24576x2048_S8192x3x2048 := by
  show StableHlo.after hostOps0 (fun b => m (c, b)) (Proc.devRef .tc main_v0) = _
  after_results
  rfl

/-- The position rows reach the region as launched. -/
theorem parr_eq (c : Dev nD) : parr m c = m ((c.tc : Thread nD τ).loc main_arg1) := V_main_arg1 m c

/-- The one host line after the region views the output array, B triples, as [3B, D] again. -/
theorem tail_eq (c : Dev nD) :
    Pipeline.afterTail₀ cfgs (dats m) 0 (V0 m) [hostOps1] c main_v2
      = shapeCast S24576x2048 (G (xarr m c) (parr m c)) shapeCasts_S8192x3x2048_S24576x2048 := by
  have hw : Pipeline.withArrays (cfgs 0).spec c (V0 m c) (fun w => (dats m 0 c).arrAt w (cfgs 0).N) (Proc.devRef .tc main_v1)
      = G (xarr m c) (parr m c) :=
    (Pipeline.withArrays_arr spec0 launch0.win.arr_inj c _ _ 2).trans (final m c)
  unfold Pipeline.afterTail₀
  show StableHlo.after hostOps1 _ (Proc.devRef .tc main_v2) = _
  after_results
  exact congrArg (fun A : S8192x3x2048.Idx → EReal => shapeCast S24576x2048 A shapeCasts_S8192x3x2048_S24576x2048) hw

/-- The kernel's function of its two argument arrays. -/
abbrev result (a0 : S24576x2048.Idx → EReal) (a1 : S1x3x2048.Idx → EReal) : S24576x2048.Idx → EReal :=
  shapeCast S24576x2048 (G (shapeCast S8192x3x2048 a0 shapeCasts_S24576x2048_S8192x3x2048) a1) shapeCasts_S8192x3x2048_S24576x2048

/-- Every weakly fair execution of @main ends with the result buffer at `result` of the launched arguments and
    the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans
        ((tail_eq m c).trans (by rw [xarr_eq, parr_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefValue.lean ====
/- The reference's result array, before its last reshape, is the correlation of its reshaped input.

   The host adds the position rows to the whole [B, 3, D] array, slices out the three shifted rows as [B, D]
   arrays, and runs the same row-level computation on whole arrays: each row sum kept as a column by
   `broadcast_in_dim`, each weight broadcast back along the row, and the three result arrays stacked along the
   middle axis. Read at (b, s, d) the value is the row-level function of triple b's three shifted rows:
   `Correlation.G` of the reshaped input and the position rows. -/
import proofs.«161562_j58420145160370_1_alg».proof.Proof.Gen.ReferenceIdeal.Run
import proofs.«161562_j58420145160370_1_alg».proof.Proof.LibHostKeepdims
import proofs.«161562_j58420145160370_1_alg».proof.Proof.Spec

set_option maxRecDepth 16384

noncomputable section

open scoped BigOperators

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value Cert.HostKeepdims Cert.Correlation

variable (V0 : Valuation τ sig (Elt Ideal))

/-- The input as B triples of rows. -/
abbrev triples : S8192x3x2048.Idx → EReal :=
  shapeCast S8192x3x2048 (V0 (Proc.devRef .tc main_arg0)) shapeCasts_S24576x2048_S8192x3x2048
/-- The position rows. -/
abbrev posRows : S1x3x2048.Idx → EReal := V0 (Proc.devRef .tc main_arg1)

/-- The three shifted rows of triple b: the slice of the shifted array along its middle axis, that axis dropped. -/
theorem v4_apply (b : Fin 8192) (d : Fin 2048) :
    res_main_v4 (F := Ideal) V0 (ix2 b d) = shifted (triples V0) (posRows V0) b 0 d := by
  unfold res_main_v4 res_main_v2 shifted
  refine (shapeCast_a1c_ac_apply (a := 8192) (c := 2048) _ _ b d).trans ?_
  refine (slice_row0_apply (a := 8192) (c := 2048) _ _ b 0 d).trans ?_
  exact congrArg (fun z => triples V0 (ix3 b (0 : Fin 3) d) + z) (broadcastInDim_1bc_abc_apply (a := 8192) _ _ b 0 d)
theorem v6_apply (b : Fin 8192) (d : Fin 2048) :
    res_main_v6 (F := Ideal) V0 (ix2 b d) = shifted (triples V0) (posRows V0) b 1 d := by
  unfold res_main_v6 res_main_v2 shifted
  refine (shapeCast_a1c_ac_apply (a := 8192) (c := 2048) _ _ b d).trans ?_
  refine (slice_row1_apply (a := 8192) (c := 2048) _ _ b 0 d).trans ?_
  exact congrArg (fun z => triples V0 (ix3 b (1 : Fin 3) d) + z) (broadcastInDim_1bc_abc_apply (a := 8192) _ _ b 1 d)
theorem v8_apply (b : Fin 8192) (d : Fin 2048) :
    res_main_v8 (F := Ideal) V0 (ix2 b d) = shifted (triples V0) (posRows V0) b 2 d := by
  unfold res_main_v8 res_main_v2 shifted
  refine (shapeCast_a1c_ac_apply (a := 8192) (c := 2048) _ _ b d).trans ?_
  refine (slice_row2_apply (a := 8192) (c := 2048) _ _ b 0 d).trans ?_
  exact congrArg (fun z => triples V0 (ix3 b (2 : Fin 3) d) + z) (broadcastInDim_1bc_abc_apply (a := 8192) _ _ b 2 d)

/-- Read one stacked result row at (b, d): the kept unit axes by rewriting (outside every sum), then the row sums,
    then the pointwise operations inside them. -/
macro "read_row" : tactic => `(tactic| (
  rw [broadcastInDim_ac_a1c_apply]
  simp only [addf_apply, mulf_apply]
  repeat rw [broadcastInDim_a1_ab_apply]
  simp only [addf_apply, subf_apply, mulf_apply, hostDivf_apply, maximumf_apply, hostSqrt_apply, constant_apply,
    broadcastInDim_scalar_apply]
  repeat rw [broadcastInDim_a_a1_apply]
  repeat rw [host_sum_last2_apply]
  simp only [mulf_apply, addf_apply, subf_apply, constant_apply, broadcastInDim_scalar_apply, Ideal.ofBits_zero_f32, zero_add,
    v4_apply, v6_apply, v8_apply]))

/-- Row 0 of triple b: the first shifted row with the second and the third. -/
theorem ref_row0 (b : Fin 8192) (d : Fin 2048) :
    res_main_v210 (F := Ideal) V0 (ix3 b (0 : Fin 3) d)
      = simRow (shifted (triples V0) (posRows V0) b 0) (shifted (triples V0) (posRows V0) b 1) (shifted (triples V0) (posRows V0) b 2) d := by
  unfold res_main_v210 res_main_v11 res_main_v22 res_main_v36 simRow distW cosW rowNorm
  rw [stack3_row0_apply]
  read_row
  rfl

/-- Row 1 of triple b: the second shifted row with the first and the third. -/
theorem ref_row1 (b : Fin 8192) (d : Fin 2048) :
    res_main_v210 (F := Ideal) V0 (ix3 b (1 : Fin 3) d)
      = simRow (shifted (triples V0) (posRows V0) b 1) (shifted (triples V0) (posRows V0) b 0) (shifted (triples V0) (posRows V0) b 2) d := by
  unfold res_main_v210 res_main_v77 res_main_v88 res_main_v102 simRow distW cosW rowNorm
  rw [stack3_row1_apply]
  read_row
  rfl

/-- Row 2 of triple b: the third shifted row with the first and the second. -/
theorem ref_row2 (b : Fin 8192) (d : Fin 2048) :
    res_main_v210 (F := Ideal) V0 (ix3 b (2 : Fin 3) d)
      = simRow (shifted (triples V0) (posRows V0) b 2) (shifted (triples V0) (posRows V0) b 0) (shifted (triples V0) (posRows V0) b 1) d := by
  unfold res_main_v210 res_main_v143 res_main_v154 res_main_v168 simRow distW cosW rowNorm
  rw [stack3_row2_apply]
  read_row
  rfl

/-- The reference's stacked result is the correlation of the reshaped input and the position rows. -/
theorem result_eq : res_main_v210 (F := Ideal) V0 = G (triples V0) (posRows V0) := by
  funext j
  obtain ⟨b, s, d, rfl⟩ : ∃ (b : Fin 8192) (s : Fin 3) (d : Fin 2048), j = ix3 b s d := ⟨j 0, j 1, j 2, eq_ix3 j⟩
  rw [G_apply]
  match s with
  | ⟨0, _⟩ => exact ref_row0 V0 b d
  | ⟨1, _⟩ => exact ref_row1 V0 b d
  | ⟨2, _⟩ => exact ref_row2 V0 b d

end Cert.ReferenceIdeal.RefValue

end
-- ==== Proof.lean ====
/- The correlation kernel against its jnp reference, over the extended reals.

   Both programs view the [3B, D] input as B triples of rows, add a position row to each row of a triple, and
   replace each row a of a triple by a + (w(a,b) + v(a,b)) · b + (w(a,c) + v(a,c)) · c, where b and c are the
   triple's other two rows, w is the weight 1 / (1 + √Σ (a − b + ε)²) of their distance and v is half of one plus
   their cosine, the row lengths kept above δ; then they view the result as [3B, D] again. The kernel does this
   block by block, 128 triples at a point of a grid of 64; the reference on whole arrays. The two texts apply the
   same operations to the same operands with the same float words for ε, δ, 1 and ½, so no algebraic law and no
   finiteness of the inputs is needed: the whole proof is that each side, read at an index, is the one function
   `Correlation.G` — on the kernel side for a block of the loaded arrays (Proof/KernelBlock.lean) and from the
   blocks to the array (Proof/KernelValue.lean), on the reference side for the whole array (Proof/RefValue.lean).
   A lane sum of the kernel and a `reduce` of the host are both the exact sum over the row; the kernel's and the
   host's square root and quotient are the same functions of extended reals. The idealization rewrote nothing, so
   the kernel's idealized text is its own text read at the exact instance. -/
import proofs.«161562_j58420145160370_1_alg».proof.Defs
import proofs.«161562_j58420145160370_1_alg».proof.Proof.Gen.Kernel
import proofs.«161562_j58420145160370_1_alg».proof.Proof.Gen.Kernel.Skeleton
import proofs.«161562_j58420145160370_1_alg».proof.Proof.Gen.Kernel.Launch
import proofs.«161562_j58420145160370_1_alg».proof.Proof.Gen.Kernel.Points
import proofs.«161562_j58420145160370_1_alg».proof.Proof.Gen.Kernel.Frame
import proofs.«161562_j58420145160370_1_alg».proof.Proof.Gen.KernelIdeal
import proofs.«161562_j58420145160370_1_alg».proof.Proof.Gen.KernelIdeal.Skeleton
import proofs.«161562_j58420145160370_1_alg».proof.Proof.Gen.KernelIdeal.Launch
import proofs.«161562_j58420145160370_1_alg».proof.Proof.Gen.KernelIdeal.Points
import proofs.«161562_j58420145160370_1_alg».proof.Proof.Gen.KernelIdeal.Frame
import proofs.«161562_j58420145160370_1_alg».proof.Proof.Gen.ReferenceIdeal
import proofs.«161562_j58420145160370_1_alg».proof.Proof.Gen.ReferenceIdeal.Run
import proofs.«161562_j58420145160370_1_alg».proof.Proof.Gen.Pre_finite_inputs
import proofs.«161562_j58420145160370_1_alg».proof.Proof.KernelValue
import proofs.«161562_j58420145160370_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_k : Cert.frame_Kernel := fun m ρ _ => Cert.Kernel.Gen.frame m ρ

/-- So does its text read at the exact instance. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with their result buffer at the correlation of the input viewed
    as triples, viewed as [3B, D] again. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  show Cert.KernelIdeal.Whole.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
